-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8192x128 : Shape := ⟨3, ![32, 8192, 128]⟩
abbrev S_ : Shape := ⟨0, ![]⟩

class Facts : Prop where
  bcast_S_S32x8192x128 : S_.BroadcastsInDim S32x8192x128 (![] : Fin 0 → Fin S32x8192x128.rank)
  reducesTo_S32x8192x128_S_d0_1_2 : S32x8192x128.ReducesTo [0, 1, 2] S_
  h_S_ : 0 < S_.numel

variable [Facts]

def fn {F : FTy → Type} [FloatOps F] (main_arg0 : FVec F S32x8192x128 .f32) : IVec S_ 1 :=
  let main_v0 : FVec F S32x8192x128 .f32 := Host.absf main_arg0
  let main_cst : FVec F S_ .f32 := constant S_ .f32 0x7F800000#32
  let main_v1 : FVec F S32x8192x128 .f32 := broadcastInDim S32x8192x128 ![] bcast_S_S32x8192x128 main_cst
  let main_v2 : IVec S32x8192x128 1 := cmpf .olt main_v0 main_v1
  let main_c : IVec S_ 1 := constantI S_ 1 1#1
  let main_v3 : IVec S_ 1 := (fun x v => Host.reduce IntOp.andi x v reducesTo_S32x8192x128_S_d0_1_2 h_S_) main_v2 main_c
  main_v3
-- ==== Kernel.lean ====
abbrev S32x8192x128 : Shape := ⟨3, ![32, 8192, 128]⟩
abbrev S32x128x128 : Shape := ⟨3, ![32, 128, 128]⟩
abbrev S1x2048x128 : Shape := ⟨3, ![1, 2048, 128]⟩
abbrev S1x128x128 : Shape := ⟨3, ![1, 128, 128]⟩
abbrev S1x128 : Shape := ⟨2, ![1, 128]⟩
abbrev S128x128 : Shape := ⟨2, ![128, 128]⟩
abbrev S2048x128 : Shape := ⟨2, ![2048, 128]⟩
abbrev S128 : Shape := ⟨1, ![128]⟩

abbrev nBuf : Space → Nat
  | .hbm => 2
  | .vmem => 6
  | .smem => 0
  | _ => 0

abbrev bufTy : (tb : Table) → Fin (tcTables nBuf tb) → BufTy
  | .hbm, ⟨0, _⟩ => ⟨S32x8192x128, .f32⟩
  | .hbm, ⟨1, _⟩ => ⟨S32x128x128, .f32⟩
  | .local _ .vmem, ⟨0, _⟩ => ⟨S1x2048x128, .f32⟩
  | .local _ .vmem, ⟨1, _⟩ => ⟨S1x2048x128, .f32⟩
  | .local _ .vmem, ⟨2, _⟩ => ⟨S1x128x128, .f32⟩
  | .local _ .vmem, ⟨3, _⟩ => ⟨S1x128x128, .f32⟩
  | .local _ .vmem, ⟨4, _⟩ => ⟨S1x128, .f32⟩
  | .local _ .vmem, ⟨5, _⟩ => ⟨S128x128, .f32⟩
  | _, _ => ⟨S32x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v18 : BitVec 1 := Scalar.cmpi .eq arg1 c3_i32
  let v19 : BitVec 32 := Scalar.extui v18
  let c0_i32_12 : BitVec 32 := 0#32
  let v20 : BitVec 1 := Scalar.cmpi .ne v19 c0_i32_12
  v20

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  reduces_S2048x128_S128 : S2048x128.Reduces [0] S128
  shapeCasts_S128_S1x128 : S128.ShapeCasts S1x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S1x128x128 : S128x128.ShapeCasts S1x128x128
  dot_S2048x128_S2048x128_S128x128_0_0_1_1_n_n_wf : DotDims.WF S2048x128 S2048x128 S128x128 [0] [0] [1] [1] [] []
  dot_S1x128_S1x128_S128x128_0_0_1_1_n_n_wf : DotDims.WF S1x128 S1x128 S128x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S32x8192x128.size a
  hwx0_0 : ∀ i : grid0.Coords, EltTy.bits .f32 = 32 ∨ (Rect.block (s := S32x8192x128) S1x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S32x128x128.size a
  hwx0_1 : ∀ i : grid0.Coords, EltTy.bits .f32 = 32 ∨ (Rect.block (s := S32x128x128) S1x128x128.size (cc0_transform_1 i) (hinb0_1 i)).WholeWords (EltTy.packing .f32)

variable [Facts₀]

def dot_S2048x128_S2048x128_S128x128_0_0_1_1_n_n : DotDims S2048x128 S2048x128 S128x128 where
  lhsContracting := [0]
  rhsContracting := [0]
  lhsNonContracting := [1]
  rhsNonContracting := [1]
  lhsBatch := []
  rhsBatch := []
  wf := dot_S2048x128_S2048x128_S128x128_0_0_1_1_n_n_wf
def dot_S1x128_S1x128_S128x128_0_0_1_1_n_n : DotDims S1x128 S1x128 S128x128 where
  lhsContracting := [0]
  rhsContracting := [0]
  lhsNonContracting := [1]
  rhsNonContracting := [1]
  lhsBatch := []
  rhsBatch := []
  wf := dot_S1x128_S1x128_S128x128_0_0_1_1_n_n_wf

abbrev win0_0 : Pipeline.Window sig grid0 :=
  Pipeline.Window.ofSpec (Memref.whole main_arg0) S1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x128x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S32x8192x128 : Shape := ⟨3, ![32, 8192, 128]⟩
abbrev S_ : Shape := ⟨0, ![]⟩
abbrev S32x128 : Shape := ⟨2, ![32, 128]⟩
abbrev S32x1x128 : Shape := ⟨3, ![32, 1, 128]⟩
abbrev S32x128x128 : Shape := ⟨3, ![32, 128, 128]⟩

abbrev nBuf : Space → Nat
  | .hbm => 13
  | .vmem => 0
  | .smem => 0
  | _ => 0

abbrev bufTy : (tb : Table) → Fin (tcTables nBuf tb) → BufTy
  | .hbm, ⟨0, _⟩ => ⟨S32x8192x128, .f32⟩
  | .hbm, ⟨1, _⟩ => ⟨S_, .f32⟩
  | .hbm, ⟨2, _⟩ => ⟨S32x128, .f32⟩
  | .hbm, ⟨3, _⟩ => ⟨S32x1x128, .f32⟩
  | .hbm, ⟨4, _⟩ => ⟨S_, .f32⟩
  | .hbm, ⟨5, _⟩ => ⟨S32x1x128, .f32⟩
  | .hbm, ⟨6, _⟩ => ⟨S32x1x128, .f32⟩
  | .hbm, ⟨7, _⟩ => ⟨S32x8192x128, .f32⟩
  | .hbm, ⟨8, _⟩ => ⟨S32x8192x128, .f32⟩
  | .hbm, ⟨9, _⟩ => ⟨S32x128x128, .f32⟩
  | .hbm, ⟨10, _⟩ => ⟨S_, .f32⟩
  | .hbm, ⟨11, _⟩ => ⟨S32x128x128, .f32⟩
  | .hbm, ⟨12, _⟩ => ⟨S32x128x128, .f32⟩
  | _, _ => ⟨S32x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  reducesTo_S32x8192x128_S32x128_d1 : S32x8192x128.ReducesTo [1] S32x128
  h_S_ : 0 < S_.numel
  bcast_S32x128_S32x1x128_0_2 : S32x128.BroadcastsInDim S32x1x128 (![0, 2] : Fin 2 → Fin S32x1x128.rank)
  bcast_S_S32x1x128 : S_.BroadcastsInDim S32x1x128 (![] : Fin 0 → Fin S32x1x128.rank)
  bcast_S32x1x128_S32x8192x128_0_1_2 : S32x1x128.BroadcastsInDim S32x8192x128 (![0, 1, 2] : Fin 3 → Fin S32x8192x128.rank)
  bcast_S_S32x128x128 : S_.BroadcastsInDim S32x128x128 (![] : Fin 0 → Fin S32x128x128.rank)
  dot_S32x8192x128_S32x8192x128_S32x128x128_1_1_2_2_0_0_wf : DotDims.WF S32x8192x128 S32x8192x128 S32x128x128 [1] [1] [2] [2] [0] [0]

variable [Facts₀]

def dot_S32x8192x128_S32x8192x128_S32x128x128_1_1_2_2_0_0 : DotDims S32x8192x128 S32x8192x128 S32x128x128 where
  lhsContracting := [1]
  rhsContracting := [1]
  lhsNonContracting := [2]
  rhsNonContracting := [2]
  lhsBatch := [0]
  rhsBatch := [0]
  wf := dot_S32x8192x128_S32x8192x128_S32x128x128_1_1_2_2_0_0_wf

class Facts : Prop extends Facts₀ where

variable [Facts]
-- ==== Proof.Rows.lean ====
/-
  The input block at a grid point, read as rows of the argument array.

  The grid walks the batches in order and, inside a batch, four chunks of 2048 rows: point t is batch t / 4, chunk t % 4.
  The block the body sees at point t is the slab of rows 2048·(t % 4) … 2048·(t % 4) + 2047 of batch t / 4, all 128 columns.
-/
import proofs.«148806_j40492951667323_1_alg».proof.Proof.Gen.KernelIdeal.Frame
import Idealize.ShloMosaic.Lib.Pipeline.Value
import Idealize.ShloMosaic.Lib.ValueIdx

noncomputable section

namespace Cert.KernelIdeal.Rows

open Cert.KernelIdeal Cert.KernelIdeal.Gen Idealize.ShloMosaic Idealize.ShloMosaic.TcCoe Idealize.ShloMosaic.ValueIdx Idealize.SL.Sem

variable {F : FTy → Type} [FloatOps F]
variable (m : (ℓ : Loc nD τ sig) → Buf (Elt F) ℓ)

/-- The argument array as the kernel finds it, at its literal type. -/
abbrev xarr (c : Dev nD) : Vec F S32x8192x128 .f32 := V m c main_arg0

/-- The input block at point t, at its literal type. -/
abbrev xblk (c : Dev nD) (t : Fin cfg0.N) : Vec F S1x2048x128 .f32 := iblk m c 0 t

/-- Where the input window's block sits at point t: batch t / 4, chunk t % 4, column block 0. -/
theorem inBlock_index : ∀ t : Fin cfg0.N, win0_0.index t (0 : Fin 3) = t.val / 4
    ∧ win0_0.index t (1 : Fin 3) = t.val % 4 ∧ win0_0.index t (2 : Fin 3) = 0 :=
  (by decide +kernel : ∀ t : Fin grid0.N, _)

/-- Entry (0, r, d) of the block at point t is the array's entry (t / 4, 2048·(t % 4) + r, d). -/
theorem xblk_apply (c : Dev nD) (t : Fin cfg0.N) (u : Fin 1) (r : Fin 2048) (d : Fin 128) (b : Fin 32) (k : Fin 8192)
    (hb : b.val = t.val / 4) (hk : k.val = 2048 * (t.val % 4) + r.val) :
    xblk m c t (ix3 u r d) = xarr m c (ix3 b k d) := by
  obtain ⟨e0, e1, e2⟩ := inBlock_index t
  show V m c main_arg0 (((cfg0.win 0).blk t).view.emb (ix3 u r d)) = V m c main_arg0 (ix3 b k d)
  refine congrArg _ ?_
  funext a; apply Fin.ext
  match a with
  | ⟨0, _⟩ => show win0_0.index t (0 : Fin 3) * 1 + 1 * u.val = b.val; have := u.isLt; omega
  | ⟨1, _⟩ => show win0_0.index t (1 : Fin 3) * 2048 + 1 * r.val = k.val; omega
  | ⟨2, _⟩ => show win0_0.index t (2 : Fin 3) * 128 + 1 * d.val = d.val; omega

end Cert.KernelIdeal.Rows

end
-- ==== Proof.Pieces.lean ====
/-
  What one run of the kernel body leaves in each buffer, as a function of what it found.

  The body first (at a batch's first point only) overwrites the row of column sums and the matrix of product sums with
  zeros; then it loads the input block, loads the row, stores row + column sums of the block, loads the matrix, stores
  matrix + (block transposed) · block; and at a batch's last point it loads the row and the matrix it has just stored and
  stores the covariance block computed from them. Every store covers its whole buffer, so what a buffer holds afterwards
  is its last store's value, with each load read as the value stored before it (or, with no store before it, as what the
  buffer held when the body started).
-/
import proofs.«148806_j40492951667323_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First point of a batch: the row is reset, then the block's column sums are added to the zeros. -/
theorem row_A (c : Dev nD) (i : grid0.Coords) (a2 : Memref sig .tc .vmem S1x2048x128 .f32) (h2 : a2.IsWhole)
    (a3 : Memref sig .tc .vmem S1x128x128 .f32) (h3 : a3.IsWhole) (a4 : Memref sig .tc .vmem S1x128 .f32) (h4 : a4.IsWhole)
    (a5 : Memref sig .tc .vmem S128x128 .f32) (h5 : a5.IsWhole) (hc0 : cond0_0 i) (hc1 : ¬cond0_1 i)
    (x : Vec F S1x2048x128 .f32) :
    sout0_A_0 c i a2 h2 a3 h3 a4 h4 a5 h5 hc0 hc1 x = k0_pay4 x (k0_pay1 (F := F)) := by
  unfold sout0_A_0
  rw [View.read_writes_eq_canon _ _ _ (scover0_A_0 c i a2 h2 a3 h3 a4 h4 a5 h5 hc0 hc1 x)]
  unfold kernelRun0_A
  dsimp only
  sl_unfold_words
  rw [View.canon_cons_unit_zero (S := S1x128) hz2, View.readCov_unit_zero (S := S1x128) _ hz2]
  simp only [View.readAt_eq_ld, h2.read_unread, h4.read_unread, h5.read_unread, View.ld_unit_zero (S := S1x2048x128) hz3,
    View.ld_unit_zero (S := S1x128) hz2, View.ld_unit_zero (S := S128x128) hz2, View.readCov_unit_zero (S := S1x128) _ hz2]

/-- First point of a batch: the matrix is reset, then the block's transpose times the block is added to the zeros. -/
theorem mat_A (c : Dev nD) (i : grid0.Coords) (a2 : Memref sig .tc .vmem S1x2048x128 .f32) (h2 : a2.IsWhole)
    (a3 : Memref sig .tc .vmem S1x128x128 .f32) (h3 : a3.IsWhole) (a4 : Memref sig .tc .vmem S1x128 .f32) (h4 : a4.IsWhole)
    (a5 : Memref sig .tc .vmem S128x128 .f32) (h5 : a5.IsWhole) (hc0 : cond0_0 i) (hc1 : ¬cond0_1 i)
    (x : Vec F S1x2048x128 .f32) :
    sout0_A_1 c i a2 h2 a3 h3 a4 h4 a5 h5 hc0 hc1 x = k0_pay5 x (k0_pay2 (F := F)) := by
  unfold sout0_A_1
  rw [View.read_writes_eq_canon _ _ _ (scover0_A_1 c i a2 h2 a3 h3 a4 h4 a5 h5 hc0 hc1 x)]
  unfold kernelRun0_A
  dsimp only
  sl_unfold_words
  rw [View.canon_cons_unit_zero (S := S128x128) hz2, View.readCov_unit_zero (S := S128x128) _ hz2]
  simp only [View.readAt_eq_ld, h2.read_unread, h4.read_unread, h5.read_unread, View.ld_unit_zero (S := S1x2048x128) hz3,
    View.ld_unit_zero (S := S1x128) hz2, View.ld_unit_zero (S := S128x128) hz2, View.readCov_unit_zero (S := S128x128) _ hz2]

/-- A middle point: the row found plus the block's column sums. -/
theorem row_B (c : Dev nD) (i : grid0.Coords) (a2 : Memref sig .tc .vmem S1x2048x128 .f32) (h2 : a2.IsWhole)
    (a3 : Memref sig .tc .vmem S1x128x128 .f32) (h3 : a3.IsWhole) (a4 : Memref sig .tc .vmem S1x128 .f32) (h4 : a4.IsWhole)
    (a5 : Memref sig .tc .vmem S128x128 .f32) (h5 : a5.IsWhole) (hc0 : ¬cond0_0 i) (hc1 : ¬cond0_1 i)
    (x : Vec F S1x2048x128 .f32) (s : Vec F S1x128 .f32) (q : Vec F S128x128 .f32) :
    sout0_B_0 c i a2 h2 a3 h3 a4 h4 a5 h5 hc0 hc1 x s q = k0_pay4 x s := by
  unfold sout0_B_0
  rw [View.read_writes_eq_canon _ _ _ (scover0_B_0 c i a2 h2 a3 h3 a4 h4 a5 h5 hc0 hc1 x s q)]
  unfold kernelRun0_B
  dsimp only
  sl_unfold_words
  rw [View.canon_unit_zero hz2]
  simp only [View.readAt_eq_ld, h2.read_unread, h4.read_unread, h5.read_unread, View.ld_unit_zero (S := S1x2048x128) hz3,
    View.ld_unit_zero (S := S1x128) hz2, View.ld_unit_zero (S := S128x128) hz2]

/-- A middle point: the matrix found plus the block's transpose times the block. -/
theorem mat_B (c : Dev nD) (i : grid0.Coords) (a2 : Memref sig .tc .vmem S1x2048x128 .f32) (h2 : a2.IsWhole)
    (a3 : Memref sig .tc .vmem S1x128x128 .f32) (h3 : a3.IsWhole) (a4 : Memref sig .tc .vmem S1x128 .f32) (h4 : a4.IsWhole)
    (a5 : Memref sig .tc .vmem S128x128 .f32) (h5 : a5.IsWhole) (hc0 : ¬cond0_0 i) (hc1 : ¬cond0_1 i)
    (x : Vec F S1x2048x128 .f32) (s : Vec F S1x128 .f32) (q : Vec F S128x128 .f32) :
    sout0_B_1 c i a2 h2 a3 h3 a4 h4 a5 h5 hc0 hc1 x s q = k0_pay5 x q := by
  unfold sout0_B_1
  rw [View.read_writes_eq_canon _ _ _ (scover0_B_1 c i a2 h2 a3 h3 a4 h4 a5 h5 hc0 hc1 x s q)]
  unfold kernelRun0_B
  dsimp only
  sl_unfold_words
  rw [View.canon_unit_zero hz2]
  simp only [View.readAt_eq_ld, h2.read_unread, h4.read_unread, h5.read_unread, View.ld_unit_zero (S := S1x2048x128) hz3,
    View.ld_unit_zero (S := S1x128) hz2, View.ld_unit_zero (S := S128x128) hz2]

/-- Last point of a batch: the row found plus the block's column sums. -/
theorem row_C (c : Dev nD) (i : grid0.Coords) (a2 : Memref sig .tc .vmem S1x2048x128 .f32) (h2 : a2.IsWhole)
    (a3 : Memref sig .tc .vmem S1x128x128 .f32) (h3 : a3.IsWhole) (a4 : Memref sig .tc .vmem S1x128 .f32) (h4 : a4.IsWhole)
    (a5 : Memref sig .tc .vmem S128x128 .f32) (h5 : a5.IsWhole) (hc0 : ¬cond0_0 i) (hc1 : cond0_1 i)
    (x : Vec F S1x2048x128 .f32) (s : Vec F S1x128 .f32) (q : Vec F S128x128 .f32) :
    sout0_C_0 c i a2 h2 a3 h3 a4 h4 a5 h5 hc0 hc1 x s q = k0_pay4 x s := by
  unfold sout0_C_0
  rw [View.read_writes_eq_canon _ _ _ (scover0_C_0 c i a2 h2 a3 h3 a4 h4 a5 h5 hc0 hc1 x s q)]
  unfold kernelRun0_C
  dsimp only
  sl_unfold_words
  rw [View.canon_unit_zero hz2]
  simp only [View.readAt_eq_ld, h2.read_unread, h4.read_unread, h5.read_unread, View.ld_unit_zero (S := S1x2048x128) hz3,
    View.ld_unit_zero (S := S1x128) hz2, View.ld_unit_zero (S := S128x128) hz2]

/-- Last point of a batch: the matrix found plus the block's transpose times the block. -/
theorem mat_C (c : Dev nD) (i : grid0.Coords) (a2 : Memref sig .tc .vmem S1x2048x128 .f32) (h2 : a2.IsWhole)
    (a3 : Memref sig .tc .vmem S1x128x128 .f32) (h3 : a3.IsWhole) (a4 : Memref sig .tc .vmem S1x128 .f32) (h4 : a4.IsWhole)
    (a5 : Memref sig .tc .vmem S128x128 .f32) (h5 : a5.IsWhole) (hc0 : ¬cond0_0 i) (hc1 : cond0_1 i)
    (x : Vec F S1x2048x128 .f32) (s : Vec F S1x128 .f32) (q : Vec F S128x128 .f32) :
    sout0_C_1 c i a2 h2 a3 h3 a4 h4 a5 h5 hc0 hc1 x s q = k0_pay5 x q := by
  unfold sout0_C_1
  rw [View.read_writes_eq_canon _ _ _ (scover0_C_1 c i a2 h2 a3 h3 a4 h4 a5 h5 hc0 hc1 x s q)]
  unfold kernelRun0_C
  dsimp only
  sl_unfold_words
  rw [View.canon_unit_zero hz2]
  simp only [View.readAt_eq_ld, h2.read_unread, h4.read_unread, h5.read_unread, View.ld_unit_zero (S := S1x2048x128) hz3,
    View.ld_unit_zero (S := S1x128) hz2, View.ld_unit_zero (S := S128x128) hz2]

/-- Last point of a batch: the output block is computed from the row and the matrix this same run has just stored. -/
theorem out_C (c : Dev nD) (i : grid0.Coords) (a2 : Memref sig .tc .vmem S1x2048x128 .f32) (h2 : a2.IsWhole)
    (a3 : Memref sig .tc .vmem S1x128x128 .f32) (h3 : a3.IsWhole) (a4 : Memref sig .tc .vmem S1x128 .f32) (h4 : a4.IsWhole)
    (a5 : Memref sig .tc .vmem S128x128 .f32) (h5 : a5.IsWhole) (hc0 : ¬cond0_0 i) (hc1 : cond0_1 i)
    (x : Vec F S1x2048x128 .f32) (s : Vec F S1x128 .f32) (q : Vec F S128x128 .f32) :
    out0_C_1 c i a2 h2 a3 h3 a4 h4 a5 h5 hc0 hc1 x s q = k0_pay6 (k0_pay4 x s) (k0_pay5 x q) := by
  unfold out0_C_1
  rw [View.read_writes_eq_canon _ _ _ (cover0_C_1 c i a2 h2 a3 h3 a4 h4 a5 h5 hc0 hc1 x s q)]
  unfold kernelRun0_C
  dsimp only
  sl_unfold_words
  rw [View.canon_unit_zero hz3]
  simp only [View.readAt_eq_ld, h2.read_unread, h3.read_unread, h4.read_unread, h5.read_unread, View.ld_unit_zero (S := S1x2048x128) hz3,
    View.ld_unit_zero (S := S1x128) hz2, View.ld_unit_zero (S := S128x128) hz2, View.ld_unit_zero (S := S1x128x128) hz3,
    View.readCov_unit_zero (S := S1x128) _ hz2, View.readCov_unit_zero (S := S128x128) _ hz2]

end Cert.KernelIdeal.Pieces

end
-- ==== Proof.LibMatmulColsByCols.lean ====
/-
  The matrix product that contracts the FIRST axis of both operands, read at an index, at the ideal values.

  A k×m matrix A and a k×n matrix B, both contracted along their rows' axis, give the m×n matrix whose entry (r, h) is
  the sum over the contracted coordinate l of A(l, r)·B(l, h): the product of the transpose of A with B. Into a zero
  accumulator, and at the ideal values, where no rounding and no order of summation is left, the product read at (r, h)
  is exactly that sum. The four coordinate lemmas say where each operand is read: the contracted axis takes the
  contraction's one coordinate, the other axis the matching coordinate of the result.
-/
import Idealize.ShloMosaic.PureOps.Ideal.Laws
import Idealize.ShloMosaic.Lib.ValueIdx

noncomputable section

namespace Idealize.ShloMosaic.MatmulColsByCols

open Idealize.ShloMosaic Idealize.ShloMosaic.ValueIdx

variable {m k n : ℕ}

/-- The dimension numbers `[0] × [0]`, kept axes `[1]` and `[1]`, no batch axis. -/
abbrev dims (w : DotDims.WF ⟨2, ![k, m]⟩ ⟨2, ![k, n]⟩ ⟨2, ![m, n]⟩ [0] [0] [1] [1] [] []) :
    DotDims ⟨2, ![k, m]⟩ ⟨2, ![k, n]⟩ ⟨2, ![m, n]⟩ := ⟨[0], [0], [1], [1], [], [], w⟩

/-- The left operand's contracted axis reads the contraction's coordinate. -/
theorem lhs_0 (w : DotDims.WF ⟨2, ![k, m]⟩ ⟨2, ![k, n]⟩ ⟨2, ![m, n]⟩ [0] [0] [1] [1] [] [])
    (j : (⟨2, ![m, n]⟩ : Shape).Idx) (q : (dims w).contr.Idx) :
    ((dims w).lhsIdx j q 0).val = (q ⟨0, Nat.one_pos⟩).val :=
  (dims w).lhsIdx_val_of_single rfl j q

/-- The left operand's kept axis reads the result's first coordinate. -/
theorem lhs_1 (w : DotDims.WF ⟨2, ![k, m]⟩ ⟨2, ![k, n]⟩ ⟨2, ![m, n]⟩ [0] [0] [1] [1] [] [])
    (j : (⟨2, ![m, n]⟩ : Shape).Idx) (q : (dims w).contr.Idx) :
    ((dims w).lhsIdx j q 1).val = (j 0).val := by
  unfold DotDims.lhsIdx
  rw [dif_neg (show ¬(1 : Fin 2) ∈ (dims w).lhsBatch from List.not_mem_nil),
    dif_pos (show (1 : Fin 2) ∈ (dims w).lhsNonContracting from List.mem_singleton.mpr rfl)]
  rfl

/-- The right operand's contracted axis reads the contraction's coordinate. -/
theorem rhs_0 (w : DotDims.WF ⟨2, ![k, m]⟩ ⟨2, ![k, n]⟩ ⟨2, ![m, n]⟩ [0] [0] [1] [1] [] [])
    (j : (⟨2, ![m, n]⟩ : Shape).Idx) (q : (dims w).contr.Idx) :
    ((dims w).rhsIdx j q 0).val = (q ⟨0, Nat.one_pos⟩).val :=
  (dims w).rhsIdx_val_of_single rfl j q

/-- The right operand's kept axis reads the result's second coordinate. -/
theorem rhs_1 (w : DotDims.WF ⟨2, ![k, m]⟩ ⟨2, ![k, n]⟩ ⟨2, ![m, n]⟩ [0] [0] [1] [1] [] [])
    (j : (⟨2, ![m, n]⟩ : Shape).Idx) (q : (dims w).contr.Idx) :
    ((dims w).rhsIdx j q 1).val = (j 1).val := by
  unfold DotDims.rhsIdx
  rw [dif_neg (show ¬(1 : Fin 2) ∈ (dims w).rhsBatch from List.not_mem_nil),
    dif_pos (show (1 : Fin 2) ∈ (dims w).rhsNonContracting from List.mem_singleton.mpr rfl)]
  rfl

/-- A kernel's product of the transpose of a k×m matrix with a k×n matrix into the zero accumulator, read at `(r, h)`. -/
theorem matmul_cols_apply {φ₁ φ₂ : FTy}
    (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂)
    (r : Fin m) (h : Fin n) :
    FloatOps.matmul (⟨[0], [0], [1], [1], [], [], w⟩ : DotDims _ _ _) prec A B
        (constant ⟨2, ![m, n]⟩ .f32 0x00000000#32) (ix2 r h)
      = ∑ l : Fin k, A (ix2 l r) * B (ix2 l h) := by
  rw [Ideal.matmul_constant_zero_apply, ← Equiv.sum_comp (contrEquiv1 (dims w) k rfl rfl).symm]
  refine Finset.sum_congr rfl fun l _ => ?_
  have c2 := contrEquiv1_symm_val (dims w) k rfl rfl l
  have l2 : (dims w).lhsIdx (ix2 r h) ((contrEquiv1 (dims w) k rfl rfl).symm l) = ix2 l r := by
    funext ax; apply Fin.ext
    match ax with
    | ⟨0, _⟩ => exact (lhs_0 w _ _).trans c2
    | ⟨1, _⟩ => exact lhs_1 w _ _
  have r2 : (dims w).rhsIdx (ix2 r h) ((contrEquiv1 (dims w) k rfl rfl).symm l) = ix2 l h := by
    funext ax; apply Fin.ext
    match ax with
    | ⟨0, _⟩ => exact (rhs_0 w _ _).trans c2
    | ⟨1, _⟩ => exact rhs_1 w _ _
  rw [l2, r2]

end Idealize.ShloMosaic.MatmulColsByCols

end
-- ==== Proof.Payloads.lean ====
/-
  The kernel body's stores, read at an index at the ideal values.

  At a grid point the body holds a block x of 2048 rows and 128 columns, a row s of 128 running column sums and a
  128 × 128 matrix q of running sums of products. It stores
    s(d) + Σ_r x(r, d)                      into the row,
    q(d, e) + Σ_r x(r, d) · x(r, e)         into the matrix (the product of the block's transpose with the block),
  and, at the last point of a batch, the covariance entry
    q(d, e) / 8192 − (s(d) / 8192) · (s(e) / 8192)
  into the output block (the outer product of the mean row with itself is a product over a contracted axis of length one).
-/
import proofs.«148806_j40492951667323_1_alg».proof.Proof.Gen.KernelIdeal.Skeleton
import proofs.«148806_j40492951667323_1_alg».proof.Proof.LibMatmulColsByCols
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Payloads

open Cert.KernelIdeal Cert.KernelIdeal.Gen Idealize.ShloMosaic Idealize.ShloMosaic.TcCoe Idealize.ShloMosaic.ValueIdx

/-- The reset row holds zeros. -/
theorem zeroRow_apply (j : S1x128.Idx) : (k0_pay1 (F := Ideal)) j = 0 := by
  unfold k0_pay1
  refine (congrFun (shapeCast_self _ _) j).trans ?_
  exact Ideal.ofBits_zero_f32

/-- The reset matrix holds zeros. -/
theorem zeroMat_apply (j : S128x128.Idx) : (k0_pay2 (F := Ideal)) j = 0 := by
  unfold k0_pay2
  refine (congrFun (shapeCast_self _ _) j).trans ?_
  exact Ideal.ofBits_zero_f32

/-- The block with its leading unit axis dropped: entry (r, d) is the block's entry (0, r, d). -/
theorem block2d_apply (x : Vec Ideal S1x2048x128 .f32) (r : Fin 2048) (d : Fin 128) :
    k0_pay3 x (ix2 r d) = x (ix3 (0 : Fin 1) r d) := by
  unfold k0_pay3
  exact shapeCast_1ab_ab_apply x _ r d

/-- The block's column sums: the reduction over the row axis at column d is the sum of that column's 2048 entries. -/
theorem colSum_apply (x : Vec Ideal S1x2048x128 .f32) (d : Fin 128) :
    multiReduction (F := Ideal) .add [0] S128 (k0_pay3 x) 0x00000000#32 reduces_S2048x128_S128 (.inl rfl) rfl (ix1 d)
      = ∑ r : Fin 2048, x (ix3 (0 : Fin 1) r d) := by
  refine (Ideal.multiReduction_add_single (k0_pay3 x) 0x00000000#32 reduces_S2048x128_S128 (.inl rfl) rfl (ix1 d)).trans ?_
  refine Finset.sum_congr rfl fun r _ => ?_
  have e : reduces_S2048x128_S128.lift (ix1 d) r = ix2 r d := by
    funext a; apply Fin.ext
    match a with
    | ⟨0, _⟩ => rfl
    | ⟨1, _⟩ => rfl
  rw [e]
  exact block2d_apply x r d

/-- The row the body stores: the row it loaded plus the block's column sums. -/
theorem rowStore_apply (x : Vec Ideal S1x2048x128 .f32) (s : Vec Ideal S1x128 .f32) (u : Fin 1) (d : Fin 128) :
    k0_pay4 x s (ix2 u d) = s (ix2 u d) + ∑ r : Fin 2048, x (ix3 (0 : Fin 1) r d) := by
  unfold k0_pay4
  refine (congrFun (shapeCast_self _ _) _).trans ?_
  refine (addf_apply _ _ _).trans ?_
  refine congrArg (s (ix2 u d) + ·) ?_
  refine (shapeCast_a_1a_apply _ _ u d).trans ?_
  exact colSum_apply x d

/-- The matrix the body stores: the matrix it loaded plus the block's transpose times the block. -/
theorem matStore_apply (x : Vec Ideal S1x2048x128 .f32) (q : Vec Ideal S128x128 .f32) (d e : Fin 128) :
    k0_pay5 x q (ix2 d e) = q (ix2 d e) + ∑ r : Fin 2048, x (ix3 (0 : Fin 1) r d) * x (ix3 (0 : Fin 1) r e) := by
  unfold k0_pay5
  refine (congrFun (shapeCast_self _ _) _).trans ?_
  refine (addf_apply _ _ _).trans ?_
  refine congrArg (q (ix2 d e) + ·) ?_
  refine (MatmulColsByCols.matmul_cols_apply _ _ (k0_pay3 x) (k0_pay3 x) d e).trans ?_
  refine Finset.sum_congr rfl fun r _ => ?_
  rw [block2d_apply, block2d_apply]

/-- The output block the body stores at a batch's last point: second moment over 8192 minus the product of the means. -/
theorem outStore_apply (s : Vec Ideal S1x128 .f32) (q : Vec Ideal S128x128 .f32) (u : Fin 1) (d e : Fin 128) :
    k0_pay6 s q (ix3 u d e)
      = Ideal.div (q (ix2 d e)) (Ideal.ofBits .f32 0x46000000#32)
        - Ideal.div (s (ix2 (0 : Fin 1) d)) (Ideal.ofBits .f32 0x46000000#32)
          * Ideal.div (s (ix2 (0 : Fin 1) e)) (Ideal.ofBits .f32 0x46000000#32) := by
  unfold k0_pay6
  refine (shapeCast_ab_1ab_apply _ _ u d e).trans ?_
  refine (subf_apply _ _ _).trans ?_
  refine congrArg (Ideal.div (q (ix2 d e)) (Ideal.ofBits .f32 0x46000000#32) - ·) ?_
  refine (MatmulColsByCols.matmul_cols_apply _ _ _ _ d e).trans ?_
  rw [Fin.sum_univ_one]
  rfl

end Cert.KernelIdeal.Payloads

end
-- ==== Proof.CovLaw.lean ====
/-
  The covariance identity, over the reals and at finite extended reals.

  For two columns u, v of n entries with column means ū = (Σ u)/n and v̄ = (Σ v)/n,
      (Σ_k (u_k − ū)(v_k − v̄)) / n  =  (Σ_k u_k v_k) / n  −  ū · v̄ :
  expanding the product, the two cross terms are each −n·ū·v̄ and the constant term is +n·ū·v̄. The left side is the
  covariance as the two-pass formula computes it (centre, then multiply), the right side the one-pass formula (raw second
  moment minus the product of the means). The expansion distributes a product over a sum, which is sound on the extended
  reals only away from the infinities: at finite entries every quantity is a real number and the identity is the real one.
-/
import Idealize.ShloMosaic.PureOps.Ideal
import Mathlib.Algebra.BigOperators.Ring.Finset
import Mathlib.Tactic.Ring
import Mathlib.Tactic.FieldSimp

noncomputable section

namespace Cert.CovLaw

open Idealize.ShloMosaic Finset

/-- The word of the float 8192.0 denotes the real number 8192. -/
theorem ofBits_8192 : Ideal.ofBits .f32 0x46000000#32 = ((8192 : ℝ) : EReal) := by
  simp [Ideal.ofBits, Ideal.ieee, -EReal.coe_mul]; norm_num

/-- The word of the float +0.0 denotes zero. -/
theorem ofBits_zero : Ideal.ofBits .f32 0x00000000#32 = 0 := by
  simp [Ideal.ofBits, Ideal.ieee]

/-- The covariance identity over the reals, for columns of n entries and a divisor N equal to n. -/
theorem real_cov (n : ℕ) (N : ℝ) (hN : N = n) (hn : N ≠ 0) (f g : ℕ → ℝ) :
    (∑ k ∈ range n, (f k - (∑ j ∈ range n, f j) * (1 / N)) * (g k - (∑ j ∈ range n, g j) * (1 / N))) * (1 / N)
      = (∑ k ∈ range n, f k * g k) * (1 / N)
        - ((∑ j ∈ range n, f j) * (1 / N)) * ((∑ j ∈ range n, g j) * (1 / N)) := by
  generalize hS : ∑ j ∈ range n, f j = S
  generalize hT : ∑ j ∈ range n, g j = T
  have h : ∑ k ∈ range n, (f k - S * (1 / N)) * (g k - T * (1 / N))
      = (∑ k ∈ range n, f k * g k) - S * (T * (1 / N)) - (S * (1 / N)) * T + N * ((S * (1 / N)) * (T * (1 / N))) := by
    simp only [sub_mul, mul_sub, sum_sub_distrib, ← sum_mul, ← mul_sum, sum_const, card_range, nsmul_eq_mul, hS, hT, hN]
    ring
  rw [h]
  field_simp
  ring

/-- A finite sum of real numbers, read in the extended reals, is the sum of the entries read there. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- The one-pass form of an entry of the covariance: the second moment over 8192, minus the product of the two means. -/
def onePass (u v : ℕ → EReal) : EReal :=
  Ideal.div (∑ n ∈ range 8192, u n * v n) (Ideal.ofBits .f32 0x46000000#32)
    - Ideal.div (∑ n ∈ range 8192, u n) (Ideal.ofBits .f32 0x46000000#32)
      * Ideal.div (∑ n ∈ range 8192, v n) (Ideal.ofBits .f32 0x46000000#32)

/-- The two-pass form: the centred columns' product summed, over 8192. -/
def twoPass (u v : ℕ → EReal) : EReal :=
  Ideal.div (∑ k ∈ range 8192,
      (u k - Ideal.div (∑ n ∈ range 8192, u n) (Ideal.ofBits .f32 0x46000000#32))
        * (v k - Ideal.div (∑ n ∈ range 8192, v n) (Ideal.ofBits .f32 0x46000000#32)))
    (Ideal.ofBits .f32 0x46000000#32)

/-- At finite entries the two forms agree: both are the real covariance. -/
theorem onePass_eq_twoPass (u v : ℕ → EReal) (f g : ℕ → ℝ) (hu : ∀ k, u k = (f k : EReal)) (hv : ∀ k, v k = (g k : EReal)) :
    onePass u v = twoPass u v := by
  have h8 : (8192 : ℝ) ≠ 0 := by norm_num
  unfold onePass twoPass
  simp only [hu, hv, ofBits_8192, Ideal.div_coe h8, ← EReal.coe_mul, ← coe_sum, ← EReal.coe_sub]
  exact congrArg _ (real_cov 8192 8192 (by norm_num) h8 f g).symm

end Cert.CovLaw

end
-- ==== Proof.Entry.lean ====
/-
  The argument array's entries indexed by natural numbers.

  The array has 32 batches of 8192 rows and 128 columns. Both programs sum over its rows; to write those sums over plain
  ranges of natural numbers the array is extended by zero: `entry x b k d` is x(b, k, d) inside the array and 0 outside.
-/
import Idealize.ShloMosaic.PureOps.Ideal
import Idealize.ShloMosaic.Lib.ValueIdx

noncomputable section

namespace Cert.Entry

open Idealize.ShloMosaic Idealize.ShloMosaic.ValueIdx

/-- The array's entry (b, k, d), and zero outside the array. -/
def entry (x : (⟨3, ![32, 8192, 128]⟩ : Shape).Idx → EReal) (b k d : ℕ) : EReal :=
  if h : b < 32 ∧ k < 8192 ∧ d < 128 then x (ix3 ⟨b, h.1⟩ ⟨k, h.2.1⟩ ⟨d, h.2.2⟩) else 0

/-- An entry of the array is `entry` at its coordinates. -/
theorem entry_of_idx (x : (⟨3, ![32, 8192, 128]⟩ : Shape).Idx → EReal) (j : (⟨3, ![32, 8192, 128]⟩ : Shape).Idx) :
    x j = entry x (j 0).val (j 1).val (j 2).val := by
  unfold entry
  rw [dif_pos ⟨(j 0).isLt, (j 1).isLt, (j 2).isLt⟩]
  exact congrArg x (eq_ix3 j)

/-- If every entry of the array is a real number, so is every `entry`. -/
theorem entry_real (x : (⟨3, ![32, 8192, 128]⟩ : Shape).Idx → EReal) (hx : ∀ j, ∃ r : ℝ, x j = (r : EReal)) (b k d : ℕ) :
    ∃ r : ℝ, entry x b k d = (r : EReal) := by
  unfold entry
  split
  · exact hx _
  · exact ⟨0, rfl⟩

end Cert.Entry

end
-- ==== Proof.LibBlockSums.lean ====
/-
  Sums over a line of entries cut into equal blocks.

  A kernel that accumulates over a grid axis walks a line of entries block by block: at block t it adds up the B entries
  B·t, …, B·t + B − 1, and it carries the total across the T blocks. Over a commutative monoid the order and the grouping of a finite sum do not
  matter, so the T block sums together are the one sum over the first T·B entries. When the line of entries was padded
  past its first N entries with entries that contribute zero, the padding drops out of the sum.
-/
import Mathlib.Algebra.BigOperators.Group.Finset.Basic
import Mathlib.Algebra.BigOperators.Fin
import Mathlib.Data.Fintype.BigOperators

namespace Idealize.ShloMosaic.BlockSums

open Finset

variable {M : Type*} [AddCommMonoid M]

/-- T consecutive blocks of B entries each, summed block by block, are the first T·B entries summed in a row. -/
theorem sum_blocks (f : ℕ → M) (B : ℕ) : ∀ T : ℕ,
    ∑ t ∈ range T, ∑ j : Fin B, f (B * t + j.val) = ∑ n ∈ range (T * B), f n
  | 0 => by simp
  | T + 1 => by
    rw [sum_range_succ, sum_blocks f B T, Nat.succ_mul, sum_range_add,
      Fin.sum_univ_eq_sum_range (fun j => f (B * T + j)) B, Nat.mul_comm B T]

/-- Entries from N on that are all zero do not count. -/
theorem sum_range_pad (f : ℕ → M) (N P : ℕ) (h : ∀ n, N ≤ n → f n = 0) :
    ∑ n ∈ range (N + P), f n = ∑ n ∈ range N, f n := by
  rw [sum_range_add, sum_eq_zero (fun x _ => h _ (Nat.le_add_right _ _)), add_zero]

/-- Both together: T blocks of B entries covering N entries and P entries of padding that contribute zero sum to the
    N entries' sum, written over `Fin N`. -/
theorem sum_blocks_pad (f : ℕ → M) (B T N P : ℕ) (hTB : T * B = N + P) (h : ∀ n, N ≤ n → f n = 0) :
    ∑ t ∈ range T, ∑ j : Fin B, f (B * t + j.val) = ∑ n : Fin N, f n.val := by
  rw [sum_blocks f B T, hTB, sum_range_pad f N P h, Fin.sum_univ_eq_sum_range]

end Idealize.ShloMosaic.BlockSums
-- ==== Proof.Accum.lean ====
/-
  The two running sums the kernel carries through a batch.

  Write x(b, k, d) for the argument array's entries (and 0 outside the array, so that entries can be indexed by natural
  numbers). Through batch b the kernel carries, per column d, the sum of the rows seen so far, and, per pair of columns
  (d, e), the sum of the products x(b, k, d) · x(b, k, e) over the rows seen so far. A batch's first point starts both
  from zero, every point adds its chunk of 2048 rows, so after chunk j of batch b the row holds the column sums, and the
  matrix the product sums, over the chunks 0 … j. Addition on the extended reals is associative and commutative, which is
  all the induction over the points uses; four chunks of 2048 rows are the batch's 8192 rows.
-/
import proofs.«148806_j40492951667323_1_alg».proof.Proof.Rows
import proofs.«148806_j40492951667323_1_alg».proof.Proof.Pieces
import proofs.«148806_j40492951667323_1_alg».proof.Proof.Payloads
import proofs.«148806_j40492951667323_1_alg».proof.Proof.CovLaw
import proofs.«148806_j40492951667323_1_alg».proof.Proof.Entry
import proofs.«148806_j40492951667323_1_alg».proof.Proof.LibBlockSums

noncomputable section

namespace Cert.KernelIdeal.Accum

open Cert.KernelIdeal Cert.KernelIdeal.Gen Cert.KernelIdeal.Rows Idealize.ShloMosaic Idealize.ShloMosaic.TcCoe
open Idealize.ShloMosaic.ValueIdx Idealize.SL.Sem Finset Cert.Entry

/-- Column d of batch b summed over chunk j (rows 2048·j … 2048·j + 2047). -/
def chunk (x : Vec Ideal S32x8192x128 .f32) (b d j : ℕ) : EReal := ∑ r : Fin 2048, entry x b (2048 * j + r.val) d

/-- The products of columns d and e of batch b summed over chunk j. -/
def chunk2 (x : Vec Ideal S32x8192x128 .f32) (b d e j : ℕ) : EReal :=
  ∑ r : Fin 2048, entry x b (2048 * j + r.val) d * entry x b (2048 * j + r.val) e

/-- Column d of batch b summed over the first n chunks. -/
def rowSum (x : Vec Ideal S32x8192x128 .f32) (b d n : ℕ) : EReal := ∑ j ∈ range n, chunk x b d j

/-- The products of columns d and e of batch b summed over the first n chunks. -/
def prodSum (x : Vec Ideal S32x8192x128 .f32) (b d e n : ℕ) : EReal := ∑ j ∈ range n, chunk2 x b d e j

variable (m : (ℓ : Loc nD τ sig) → Buf (Elt Ideal) ℓ)

/-- An entry of the block at point t is the array's entry in batch t / 4, chunk t % 4. -/
theorem xblk_entry (c : Dev nD) (t : Fin cfg0.N) (r : Fin 2048) (d : Fin 128) :
    xblk m c t (ix3 (0 : Fin 1) r d) = entry (xarr m c) (t.val / 4) (2048 * (t.val % 4) + r.val) d.val := by
  have hN : t.val < 128 := lt_of_lt_of_eq t.isLt (show cfg0.N = 128 from N_0)
  have hr := r.isLt
  refine (xblk_apply m c t 0 r d ⟨t.val / 4, by omega⟩ ⟨2048 * (t.val % 4) + r.val, by omega⟩ rfl rfl).trans ?_
  exact entry_of_idx _ _

/-- The block's column sums are the chunk's. -/
theorem blkCol (c : Dev nD) (t : Fin cfg0.N) (d : Fin 128) :
    ∑ r : Fin 2048, xblk m c t (ix3 (0 : Fin 1) r d) = chunk (xarr m c) (t.val / 4) d.val (t.val % 4) :=
  Finset.sum_congr rfl fun r _ => xblk_entry m c t r d

/-- The block's transpose times the block, at (d, e), is the chunk's sum of products. -/
theorem blkProd (c : Dev nD) (t : Fin cfg0.N) (d e : Fin 128) :
    ∑ r : Fin 2048, xblk m c t (ix3 (0 : Fin 1) r d) * xblk m c t (ix3 (0 : Fin 1) r e)
      = chunk2 (xarr m c) (t.val / 4) d.val e.val (t.val % 4) :=
  Finset.sum_congr rfl fun r _ => by rw [xblk_entry, xblk_entry]

/-- A batch's first point leaves the chunk's sums: the reset zeros plus the chunk. -/
theorem step_first (c : Dev nD) (t : Fin cfg0.N) (h0 : t.val % 4 = 0) (h1 : ¬t.val % 4 = 3) :
    (∀ (u : Fin 1) (d : Fin 128), (outsAt0 m c t.val t.isLt).2.1 (ix2 u d) = chunk (xarr m c) (t.val / 4) d.val (t.val % 4))
    ∧ (∀ d e : Fin 128, (outsAt0 m c t.val t.isLt).2.2 (ix2 d e) = chunk2 (xarr m c) (t.val / 4) d.val e.val (t.val % 4)) := by
  rw [outsAt0_A m c t h0 h1]
  dsimp only
  constructor
  · intro u d
    refine (congrFun (Pieces.row_A (F := Ideal) c (grid0.coords t) (ms0_0 t) (hs0_0 t) (ms0_1 t) (hs0_1 t) scM0_0 (Memref.isWhole_whole _) scM0_1 (Memref.isWhole_whole _) ((hcond0_0 t).mpr h0) (fun h => h1 ((hcond0_1 t).mp h)) (xblk m c t)) (ix2 u d)).trans ?_
    refine (Payloads.rowStore_apply (xblk m c t) (k0_pay1 (F := Ideal)) u d).trans ?_
    rw [Payloads.zeroRow_apply, zero_add]
    exact blkCol m c t d
  · intro d e
    refine (congrFun (Pieces.mat_A (F := Ideal) c (grid0.coords t) (ms0_0 t) (hs0_0 t) (ms0_1 t) (hs0_1 t) scM0_0 (Memref.isWhole_whole _) scM0_1 (Memref.isWhole_whole _) ((hcond0_0 t).mpr h0) (fun h => h1 ((hcond0_1 t).mp h)) (xblk m c t)) (ix2 d e)).trans ?_
    refine (Payloads.matStore_apply (xblk m c t) (k0_pay2 (F := Ideal)) d e).trans ?_
    rw [Payloads.zeroMat_apply, zero_add]
    exact blkProd m c t d e

/-- Any later point of a batch adds its chunk to what the point before left. -/
theorem step_later (c : Dev nD) (t : Fin cfg0.N) (h0 : ¬t.val % 4 = 0) (u : Fin 1) (d : Fin 128) :
    (outsAt0 m c t.val t.isLt).2.1 (ix2 u d)
      = (outsAt0 m c (t.val - 1) (Nat.lt_of_le_of_lt (Nat.sub_le _ _) t.isLt)).2.1 (ix2 u d) + chunk (xarr m c) (t.val / 4) d.val (t.val % 4) := by
  by_cases h1 : t.val % 4 = 3
  · rw [outsAt0_C m c t h0 h1]
    dsimp only
    refine (congrFun (Pieces.row_C (F := Ideal) c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (xblk m c t) (outsAt0 m c (t.val - 1) (Nat.lt_of_le_of_lt (Nat.sub_le _ _) t.isLt)).2.1 (outsAt0 m c (t.val - 1) (Nat.lt_of_le_of_lt (Nat.sub_le _ _) t.isLt)).2.2) (ix2 u d)).trans ?_
    refine (Payloads.rowStore_apply (xblk m c t) _ u d).trans ?_
    rw [blkCol m c t d]
  · rw [outsAt0_B m c t h0 h1]
    dsimp only
    refine (congrFun (Pieces.row_B (F := Ideal) c (grid0.coords t) (ms0_0 t) (hs0_0 t) (ms0_1 t) (hs0_1 t) scM0_0 (Memref.isWhole_whole _) scM0_1 (Memref.isWhole_whole _) (fun h => h0 ((hcond0_0 t).mp h)) (fun h => h1 ((hcond0_1 t).mp h)) (xblk m c t) (outsAt0 m c (t.val - 1) (Nat.lt_of_le_of_lt (Nat.sub_le _ _) t.isLt)).2.1 (outsAt0 m c (t.val - 1) (Nat.lt_of_le_of_lt (Nat.sub_le _ _) t.isLt)).2.2) (ix2 u d)).trans ?_
    refine (Payloads.rowStore_apply (xblk m c t) _ u d).trans ?_
    rw [blkCol m c t d]

/-- The same for the matrix of product sums. -/
theorem step_later_mat (c : Dev nD) (t : Fin cfg0.N) (h0 : ¬t.val % 4 = 0) (d e : Fin 128) :
    (outsAt0 m c t.val t.isLt).2.2 (ix2 d e)
      = (outsAt0 m c (t.val - 1) (Nat.lt_of_le_of_lt (Nat.sub_le _ _) t.isLt)).2.2 (ix2 d e) + chunk2 (xarr m c) (t.val / 4) d.val e.val (t.val % 4) := by
  by_cases h1 : t.val % 4 = 3
  · rw [outsAt0_C m c t h0 h1]
    dsimp only
    refine (congrFun (Pieces.mat_C (F := Ideal) c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (xblk m c t) (outsAt0 m c (t.val - 1) (Nat.lt_of_le_of_lt (Nat.sub_le _ _) t.isLt)).2.1 (outsAt0 m c (t.val - 1) (Nat.lt_of_le_of_lt (Nat.sub_le _ _) t.isLt)).2.2) (ix2 d e)).trans ?_
    refine (Payloads.matStore_apply (xblk m c t) _ d e).trans ?_
    rw [blkProd m c t d e]
  · rw [outsAt0_B m c t h0 h1]
    dsimp only
    refine (congrFun (Pieces.mat_B (F := Ideal) c (grid0.coords t) (ms0_0 t) (hs0_0 t) (ms0_1 t) (hs0_1 t) scM0_0 (Memref.isWhole_whole _) scM0_1 (Memref.isWhole_whole _) (fun h => h0 ((hcond0_0 t).mp h)) (fun h => h1 ((hcond0_1 t).mp h)) (xblk m c t) (outsAt0 m c (t.val - 1) (Nat.lt_of_le_of_lt (Nat.sub_le _ _) t.isLt)).2.1 (outsAt0 m c (t.val - 1) (Nat.lt_of_le_of_lt (Nat.sub_le _ _) t.isLt)).2.2) (ix2 d e)).trans ?_
    refine (Payloads.matStore_apply (xblk m c t) _ d e).trans ?_
    rw [blkProd m c t d e]

/-- THE INVARIANT: after point n the row holds the column sums, and the matrix the product sums, of batch n / 4 over the
    chunks 0 … n % 4. -/
theorem sums_at (c : Dev nD) : ∀ (n : ℕ) (h : n < cfg0.N),
    (∀ (u : Fin 1) (d : Fin 128), (outsAt0 m c n h).2.1 (ix2 u d) = rowSum (xarr m c) (n / 4) d.val (n % 4 + 1))
    ∧ (∀ d e : Fin 128, (outsAt0 m c n h).2.2 (ix2 d e) = prodSum (xarr m c) (n / 4) d.val e.val (n % 4 + 1))
  | 0, h => by
    obtain ⟨hr, hq⟩ := step_first m c ⟨0, h⟩ rfl (by dsimp only; omega)
    exact ⟨fun u d => (hr u d).trans (by simp [rowSum]), fun d e => (hq d e).trans (by simp [prodSum])⟩
  | n + 1, h => by
    have hN : n + 1 < 128 := lt_of_lt_of_eq h (show cfg0.N = 128 from N_0)
    obtain ⟨ihr, ihq⟩ := sums_at c n (Nat.lt_of_succ_lt h)
    by_cases h0 : (n + 1) % 4 = 0
    · obtain ⟨hr, hq⟩ := step_first m c ⟨n + 1, h⟩ h0 (by dsimp only; omega)
      refine ⟨fun u d => (hr u d).trans ?_, fun d e => (hq d e).trans ?_⟩
      · dsimp only; rw [h0]; simp [rowSum]
      · dsimp only; rw [h0]; simp [prodSum]
    · have e1 : n / 4 = (n + 1) / 4 := by omega
      have e2 : n % 4 + 1 = (n + 1) % 4 := by omega
      refine ⟨fun u d => (step_later m c ⟨n + 1, h⟩ h0 u d).trans ?_, fun d e => (step_later_mat m c ⟨n + 1, h⟩ h0 d e).trans ?_⟩
      · show (outsAt0 m c n _).2.1 (ix2 u d) + chunk _ ((n + 1) / 4) d.val ((n + 1) % 4) = rowSum _ ((n + 1) / 4) d.val ((n + 1) % 4 + 1)
        rw [ihr u d, e1, e2]
        unfold rowSum
        rw [Finset.sum_range_succ]
      · show (outsAt0 m c n _).2.2 (ix2 d e) + chunk2 _ ((n + 1) / 4) d.val e.val ((n + 1) % 4) = prodSum _ ((n + 1) / 4) d.val e.val ((n + 1) % 4 + 1)
        rw [ihq d e, e1, e2]
        unfold prodSum
        rw [Finset.sum_range_succ]

/-- Four chunks of 2048 rows are the batch's 8192 rows: the column sum. -/
theorem rowSum_four (x : Vec Ideal S32x8192x128 .f32) (b d : ℕ) : rowSum x b d 4 = ∑ n ∈ range 8192, entry x b n d :=
  BlockSums.sum_blocks (fun n => entry x b n d) 2048 4

/-- Four chunks of 2048 rows are the batch's 8192 rows: the sum of products. -/
theorem prodSum_four (x : Vec Ideal S32x8192x128 .f32) (b d e : ℕ) :
    prodSum x b d e 4 = ∑ n ∈ range 8192, entry x b n d * entry x b n e :=
  BlockSums.sum_blocks (fun n => entry x b n d * entry x b n e) 2048 4

/-- A batch's last point writes the covariance in its one-pass form: the output block's entry (·, d, e) is the second
    moment of columns d and e over 8192 minus the product of the two column means. -/
theorem out_last (c : Dev nD) (t : Fin cfg0.N) (h1 : t.val % 4 = 3) (u : Fin 1) (d e : Fin 128) :
    (outsAt0 m c t.val t.isLt).1 (ix3 u d e)
      = CovLaw.onePass (fun n => entry (xarr m c) (t.val / 4) n d.val) (fun n => entry (xarr m c) (t.val / 4) n e.val) := by
  have h0 : ¬t.val % 4 = 0 := by omega
  obtain ⟨hr, hq⟩ := sums_at m c t.val t.isLt
  have e0 : (outsAt0 m c t.val t.isLt).1 = k0_pay6 (outsAt0 m c t.val t.isLt).2.1 (outsAt0 m c t.val t.isLt).2.2 := by
    rw [outsAt0_C m c t h0 h1]
    dsimp only
    rw [Pieces.out_C (F := Ideal) c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (xblk m c t) (outsAt0 m c (t.val - 1) (Nat.lt_of_le_of_lt (Nat.sub_le _ _) t.isLt)).2.1 (outsAt0 m c (t.val - 1) (Nat.lt_of_le_of_lt (Nat.sub_le _ _) t.isLt)).2.2,
      Pieces.row_C (F := Ideal) c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (xblk m c t) (outsAt0 m c (t.val - 1) (Nat.lt_of_le_of_lt (Nat.sub_le _ _) t.isLt)).2.1 (outsAt0 m c (t.val - 1) (Nat.lt_of_le_of_lt (Nat.sub_le _ _) t.isLt)).2.2,
      Pieces.mat_C (F := Ideal) c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (xblk m c t) (outsAt0 m c (t.val - 1) (Nat.lt_of_le_of_lt (Nat.sub_le _ _) t.isLt)).2.1 (outsAt0 m c (t.val - 1) (Nat.lt_of_le_of_lt (Nat.sub_le _ _) t.isLt)).2.2]
  rw [e0]
  refine (Payloads.outStore_apply _ _ u d e).trans ?_
  rw [hr 0 d, hr 0 e, hq d e, h1]
  show Ideal.div (prodSum _ _ _ _ 4) _ - Ideal.div (rowSum _ _ _ 4) _ * Ideal.div (rowSum _ _ _ 4) _ = _
  rw [rowSum_four, rowSum_four, prodSum_four]
  rfl

end Cert.KernelIdeal.Accum

end
-- ==== Proof.KernelValue.lean ====
/-
  The kernel's output array: the covariance in its one-pass form.

  The output array has one 128 × 128 block per batch. The block of batch b is written back once, after the batch's last
  grid point 4·b + 3, when the two running sums cover all 8192 rows of the batch; what is written is, at (d, e), the
  second moment of columns d and e over 8192 minus the product of the two column means. The 32 blocks tile the array.
-/
import proofs.«148806_j40492951667323_1_alg».proof.Proof.Accum
import proofs.«148806_j40492951667323_1_alg».proof.Proof.Gen.KernelIdeal.Value

noncomputable section

namespace Cert.KernelIdeal.KernelValue

open Cert.KernelIdeal Cert.KernelIdeal.Gen Cert.KernelIdeal.Rows Cert.KernelIdeal.Accum Idealize.ShloMosaic Idealize.ShloMosaic.TcCoe
open Idealize.ShloMosaic.ValueIdx Idealize.SL.Sem Cert.Entry
open Idealize.ShloMosaic.Pipeline (Dat)

variable (m : (ℓ : Loc nD τ sig) → Buf (Elt Ideal) ℓ) (ρ : Dev nD → PrngReg)

/-- The covariance array, one-pass form: entry (b, d, e) from columns d and e of batch b. -/
def cov (x : Vec Ideal S32x8192x128 .f32) : Vec Ideal S32x128x128 .f32 := fun i =>
  CovLaw.onePass (fun n => entry x (i 0).val n (i 1).val) (fun n => entry x (i 0).val n (i 2).val)

/-- Where the output window's block sits at point t: batch t / 4, the whole 128 × 128 matrix. -/
theorem outBlock_index : ∀ t : Fin cfg0.N, win0_1.index t (0 : Fin 3) = t.val / 4
    ∧ win0_1.index t (1 : Fin 3) = 0 ∧ win0_1.index t (2 : Fin 3) = 0 :=
  (by decide +kernel : ∀ t : Fin grid0.N, _)

/-- What a batch's last point writes back is that batch's block of the covariance array. -/
theorem flushed_eq (c : Dev nD) (t : Fin cfg0.N) (hf : (cfg0.win 1).flush t = true) :
    (dats m 0 c).flushed 1 t = ((cfg0.win 1).blk t).view.read (Elt Ideal) (cov (xarr m c)) := by
  have h1 : t.val % 4 = 3 := (flush0_1 t).mp hf
  obtain ⟨e0, e1, e2⟩ := outBlock_index t
  rw [Value.flushed1]
  funext j
  show (outsAt0 m c t.val t.isLt).1 j = cov (xarr m c) (((cfg0.win 1).blk t).view.emb j)
  have hj0 : (j 0).val < 1 := (j 0).isLt
  have c0 : ((((cfg0.win 1).blk t).view.emb j) 0).val = t.val / 4 := by
    show win0_1.index t (0 : Fin 3) * 1 + 1 * (j 0).val = _; omega
  have c1 : ((((cfg0.win 1).blk t).view.emb j) 1).val = (j 1).val := by
    show win0_1.index t (1 : Fin 3) * 128 + 1 * (j 1).val = _; omega
  have c2 : ((((cfg0.win 1).blk t).view.emb j) 2).val = (j 2).val := by
    show win0_1.index t (2 : Fin 3) * 128 + 1 * (j 2).val = _; omega
  refine (congrArg (outsAt0 m c t.val t.isLt).1 (eq_ix3 (n0 := 1) (n1 := 128) (n2 := 128) j)).trans ?_
  refine (out_last m c t h1 (j 0) (j 1) (j 2)).trans ?_
  unfold cov
  rw [c0, c1, c2]

/-- An index of the output array is in point t's block iff each coordinate is in the block's range on its axis. -/
theorem mem_outBlock (t : Fin cfg0.N) (i : S32x128x128.Idx) :
    i ∈ ((cfg0.win 1).blk t).view.set ↔ ∀ a : Fin 3, win0_1.index t a * S1x128x128.size a ≤ (i a).val
      ∧ (i a).val < win0_1.index t a * S1x128x128.size a + S1x128x128.size a := by
  show i ∈ ((View.whole main_v0).slice (win0_1.rect t)).set ↔ _
  rw [View.set_slice_whole, Rect.mem_set_unit]
  exact Iff.rfl

/-- After the run the output array is the covariance array: the blocks written after the points 4·b + 3 tile it. -/
theorem final (c : Dev nD) : (dats m 0 c).arrAt 1 cfg0.N = cov (xarr m c) :=
  (dats m 0 c).arrAt_eq_of_cover 1 (cov (xarr m c)) (flushed_eq m c) fun i => by
    have hb : (i 0).val < 32 := (i 0).isLt
    have hd : (i 1).val < 128 := (i 1).isLt
    have he : (i 2).val < 128 := (i 2).isLt
    have hN : cfg0.N = 128 := N_0
    have ht : 4 * (i 0).val + 3 < cfg0.N := by omega
    obtain ⟨e0, e1, e2⟩ := outBlock_index ⟨4 * (i 0).val + 3, ht⟩
    refine ⟨⟨4 * (i 0).val + 3, ht⟩, (flush0_1 _).mpr (by show (4 * (i 0).val + 3) % 4 = 3; omega), ?_⟩
    rw [mem_outBlock]
    intro a
    match a with
    | ⟨0, _⟩ =>
      show win0_1.index ⟨4 * (i 0).val + 3, ht⟩ (0 : Fin 3) * 1 ≤ (i 0).val ∧ (i 0).val < win0_1.index ⟨4 * (i 0).val + 3, ht⟩ (0 : Fin 3) * 1 + 1
      rw [e0]; dsimp only; omega
    | ⟨1, _⟩ =>
      show win0_1.index ⟨4 * (i 0).val + 3, ht⟩ (1 : Fin 3) * 128 ≤ (i 1).val ∧ (i 1).val < win0_1.index ⟨4 * (i 0).val + 3, ht⟩ (1 : Fin 3) * 128 + 128
      rw [e1]; omega
    | ⟨2, _⟩ =>
      show win0_1.index ⟨4 * (i 0).val + 3, ht⟩ (2 : Fin 3) * 128 ≤ (i 2).val ∧ (i 2).val < win0_1.index ⟨4 * (i 0).val + 3, ht⟩ (2 : Fin 3) * 128 + 128
      rw [e2]; omega

/-- The kernel's run: the output array ends at the covariance array of the argument, the argument unchanged. -/
theorem run : θ_run defs (onTc (τ := τ) (main (F := Ideal))) ⟨m, fun _ => 0, ρ⟩ fun r => ∀ c : Dev nD,
      r.2.mem ((c : Thread nD τ).loc main_v0) = cov (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.KernelValue

end
-- ==== Proof.RefValue.lean ====
/-
  The reference at an index: the covariance in its two-pass form.

  The reference takes each column's mean over the 8192 rows of a batch, subtracts it from the column, multiplies the
  centred columns d and e row by row, sums over the rows and divides by 8192. Read at (b, d, e) that is the two-pass form
  of the covariance of columns d and e of batch b.
-/
import proofs.«148806_j40492951667323_1_alg».proof.Proof.Gen.ReferenceIdeal.Read
import proofs.«148806_j40492951667323_1_alg».proof.Proof.CovLaw
import proofs.«148806_j40492951667323_1_alg».proof.Proof.Entry
import Mathlib.Algebra.BigOperators.Fin

noncomputable section

namespace Cert.ReferenceIdeal.RefValue

open Cert.ReferenceIdeal Cert.ReferenceIdeal.Read Idealize.ShloMosaic Idealize.ShloMosaic.TcCoe Idealize.ShloMosaic.ValueIdx
open Finset Cert.Entry

/-- The broadcast column mean at an entry (b, k, d): column d of batch b summed over its 8192 rows, over 8192. -/
theorem mean_apply (x : (⟨S32x8192x128, .f32⟩ : BufTy).Contents (Elt Ideal)) (j : S32x8192x128.Idx) :
    val_main_v4 (F := Ideal) x j
      = Ideal.div (∑ n ∈ range 8192, entry x (j 0).val n (j 2).val) (Ideal.ofBits .f32 0x46000000#32) := by
  rw [val_main_v4_apply, val_main_v3_apply, val_main_v1_apply, val_main_v0_apply, val_main_v2_apply, val_main_cst_0_apply,
    val_main_cst_apply]
  simp only [Ideal.hostDivf_def, Ideal.ofBits_def, CovLaw.ofBits_zero, zero_add]
  refine congrArg (Ideal.div · _) ?_
  rw [← Fin.sum_univ_eq_sum_range (fun n => entry x (j 0).val n (j 2).val) 8192]
  refine Finset.sum_congr rfl fun k _ => ?_
  exact entry_of_idx x _

/-- The reference's result at (b, d, e) is the two-pass covariance of columns d and e of batch b. -/
theorem ref_apply (x : (⟨S32x8192x128, .f32⟩ : BufTy).Contents (Elt Ideal)) (i : S32x128x128.Idx) :
    val_main_v8 (F := Ideal) x i
      = CovLaw.twoPass (fun n => entry x (i 0).val n (i 1).val) (fun n => entry x (i 0).val n (i 2).val) := by
  rw [val_main_v8_apply, val_main_v6_apply, val_main_v7_apply, val_main_cst_1_apply]
  simp only [val_main_v5_apply, mean_apply, Ideal.hostDivf_def, Ideal.ofBits_def, Ideal.subf_def]
  unfold CovLaw.twoPass
  refine congrArg (Ideal.div · _) ?_
  rw [← Fin.sum_univ_eq_sum_range (fun k =>
    (entry x (i 0).val k (i 1).val - Ideal.div (∑ n ∈ range 8192, entry x (i 0).val n (i 1).val) (Ideal.ofBits .f32 0x46000000#32))
      * (entry x (i 0).val k (i 2).val - Ideal.div (∑ n ∈ range 8192, entry x (i 0).val n (i 2).val) (Ideal.ofBits .f32 0x46000000#32))) 8192]
  refine Finset.sum_congr rfl fun k _ => ?_
  rw [entry_of_idx x (lidx_main_v6 i k), entry_of_idx x (ridx_main_v6 i k)]

end Cert.ReferenceIdeal.RefValue

end
-- ==== Proof.Finite.lean ====
/-
  The precondition read at an entry: every entry of the argument array is a real number.

  The precondition says that the conjunction, over all entries x, of the comparisons |x| < +∞ is true. A conjunction of
  bits that is 1 has every bit 1, so |x| < +∞ at each entry; on the extended reals |x| = max(x, −x), and max(x, −x) < +∞
  excludes x = +∞ (then x itself is +∞) and x = −∞ (then −x is +∞): x is a real number.
-/
import proofs.«148806_j40492951667323_1_alg».proof.Pre_finite_inputs
import proofs.«148806_j40492951667323_1_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic

instance : Subsingleton Cert.Pre_finite_inputs.S_.Idx := ⟨fun a b => funext fun d => d.elim0⟩

/-- A bit made from a truth value is 1 exactly when the value is true. -/
theorem bit_one {b : Bool} : BitVec.ofBool b = 1#1 ↔ b = true := by cases b <;> decide

/-- The word of +∞ denotes the top of the extended reals. -/
theorem ofBits_inf : Ideal.ofBits .f32 0x7F800000#32 = ⊤ := by
  simp [Ideal.ofBits, Ideal.ieee]

/-- Under the precondition every entry is (the image of) a real number. -/
theorem real_of_pre (x : FVec Ideal Cert.Pre_finite_inputs.S32x8192x128 .f32)
    (h : Cert.Pre_finite_inputs.fn (F := Ideal) x = fun _ => 1#1) (i : Cert.Pre_finite_inputs.S32x8192x128.Idx) :
    ∃ r : ℝ, x i = (r : EReal) := by
  have h0 := congrFun h ValueIdx.ix0
  dsimp only [Cert.Pre_finite_inputs.fn] at h0
  have hi := Host.reduce_andi_all _ _ _ _ _ h0 i
  have hc : Ideal.cmp .olt (max (x i : EReal) (-(x i : EReal))) (Ideal.ofBits .f32 0x7F800000#32) = 1#1 := hi
  rw [ofBits_inf] at hc
  have hb : (x i : EReal) < ⊤ ∧ -(x i : EReal) < ⊤ := by
    unfold Ideal.cmp at hc
    simpa [bit_one] using hc
  have hne_top : (x i : EReal) ≠ ⊤ := hb.1.ne
  have hne_bot : (x i : EReal) ≠ ⊥ := fun e => by rw [e] at hb; simp at hb
  exact ⟨(x i : EReal).toReal, (EReal.coe_toReal hne_top hne_bot).symm⟩

end Cert.Finite

end
-- ==== Proof.lean ====
/-
  Per-batch covariance, cov[b] = (1/N) · xc[b]ᵀ · xc[b] with xc[b] = x[b] − mean(x[b]) over the N = 8192 rows of batch b:
  the streaming kernel against the two-pass formula.

  The kernel walks each batch in four chunks of 2048 rows and carries two running sums: per column d the sum of the
  rows seen so far, and per pair of columns (d, e) the sum of the products x(k, d) · x(k, e). After the last chunk it
  writes Σ_k x(k, d) x(k, e) / N − (Σ_k x(k, d) / N) · (Σ_k x(k, e) / N). The reference centres the columns first and
  computes Σ_k (x(k, d) − x̄_d)(x(k, e) − x̄_e) / N. Expanding the product, the two cross terms and the constant term
  combine to −N · x̄_d · x̄_e, so the two formulas agree on real numbers; the expansion distributes products over sums,
  which is where the precondition that every input entry is finite is used. Everything before that point — that the
  four chunk sums are the sum over all rows — uses only that addition is associative and commutative.

  The three frames are the generated ones (the reference's is its generated run with the result dropped); the kernel's
  idealization rewrote no operation, so there is nothing to preserve.
-/
import proofs.«148806_j40492951667323_1_alg».proof.Defs
import proofs.«148806_j40492951667323_1_alg».proof.Proof.Gen.Kernel
import proofs.«148806_j40492951667323_1_alg».proof.Proof.Gen.Kernel.Skeleton
import proofs.«148806_j40492951667323_1_alg».proof.Proof.Gen.Kernel.Launch
import proofs.«148806_j40492951667323_1_alg».proof.Proof.Gen.Kernel.Points
import proofs.«148806_j40492951667323_1_alg».proof.Proof.Gen.Kernel.Frame
import proofs.«148806_j40492951667323_1_alg».proof.Proof.Gen.KernelIdeal
import proofs.«148806_j40492951667323_1_alg».proof.Proof.Gen.KernelIdeal.Skeleton
import proofs.«148806_j40492951667323_1_alg».proof.Proof.Gen.KernelIdeal.Launch
import proofs.«148806_j40492951667323_1_alg».proof.Proof.Gen.KernelIdeal.Points
import proofs.«148806_j40492951667323_1_alg».proof.Proof.Gen.KernelIdeal.Frame
import proofs.«148806_j40492951667323_1_alg».proof.Proof.Gen.ReferenceIdeal
import proofs.«148806_j40492951667323_1_alg».proof.Proof.Gen.Pre_finite_inputs
import proofs.«148806_j40492951667323_1_alg».proof.Proof.Gen.KernelIdeal.Value
import proofs.«148806_j40492951667323_1_alg».proof.Proof.Gen.ReferenceIdeal.Run
import proofs.«148806_j40492951667323_1_alg».proof.Proof.Gen.ReferenceIdeal.Read
import proofs.«148806_j40492951667323_1_alg».proof.Proof.KernelValue
import proofs.«148806_j40492951667323_1_alg».proof.Proof.RefValue
import proofs.«148806_j40492951667323_1_alg».proof.Proof.Finite
import Idealize.ShloMosaic.Adequacy
import Idealize.ShloMosaic.Init

noncomputable section

namespace Cert.Proof

open Idealize.ShloMosaic Idealize.SL.Sem Cert.Kernel

/-- The word-level kernel runs and leaves its argument unchanged. -/
theorem frame_kernel : Cert.frame_Kernel := fun m ρ _ => Cert.Kernel.Gen.frame m ρ

/-- The idealized kernel runs and leaves its argument unchanged. -/
theorem frame_kernelIdeal : Cert.frame_KernelIdeal := fun m ρ _ => Cert.KernelIdeal.Gen.frame m ρ

/-- The idealized reference runs and leaves its argument unchanged. -/
theorem frame_referenceIdeal : Cert.frame_ReferenceIdeal := fun m ρ _ =>
  (θ_run Cert.ReferenceIdeal.defs _ _).mono (fun _ h c => (h c).2) (Cert.ReferenceIdeal.Value.run (F := Ideal) m ρ)

/-- At the ideal values, from arguments that agree and are finite, both programs end at the covariance array: the kernel
    at its one-pass form, the reference at its two-pass form, and at finite entries the two forms are the same real number. -/
theorem algebraic : Cert.algebraic_KernelIdeal_ReferenceIdeal := by
  intro m ρ m' ρ' hpre hagree
  refine ⟨fun c => Cert.KernelIdeal.KernelValue.cov (m ((c.tc : Thread Cert.KernelIdeal.nD Cert.KernelIdeal.τ).loc Cert.KernelIdeal.main_arg0)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, hagree c]
  funext i
  rw [Cert.ReferenceIdeal.RefValue.ref_apply]
  have hx := Cert.Finite.real_of_pre _ (hpre c)
  choose f hf using fun n => Cert.Entry.entry_real _ hx (i 0).val n (i 1).val
  choose g hg using fun n => Cert.Entry.entry_real _ hx (i 0).val n (i 2).val
  exact (Cert.CovLaw.onePass_eq_twoPass _ _ f g hf hg).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
